-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3072 : Shape := ⟨2, ![32768, 3072]⟩
abbrev S32x3072 : Shape := ⟨2, ![32, 3072]⟩
abbrev S32 : Shape := ⟨1, ![32]⟩
abbrev S10x32 : Shape := ⟨2, ![10, 32]⟩
abbrev S10 : Shape := ⟨1, ![10]⟩
abbrev S_ : Shape := ⟨0, ![]⟩

class Facts : Prop where
  bcast_S_S32768x3072 : S_.BroadcastsInDim S32768x3072 (![] : Fin 0 → Fin S32768x3072.rank)
  reducesTo_S32768x3072_S_d0_1 : S32768x3072.ReducesTo [0, 1] S_
  h_S_ : 0 < S_.numel
  bcast_S_S32x3072 : S_.BroadcastsInDim S32x3072 (![] : Fin 0 → Fin S32x3072.rank)
  reducesTo_S32x3072_S_d0_1 : S32x3072.ReducesTo [0, 1] S_
  bcast_S_S32 : S_.BroadcastsInDim S32 (![] : Fin 0 → Fin S32.rank)
  reducesTo_S32_S_d0 : S32.ReducesTo [0] S_
  bcast_S_S10x32 : S_.BroadcastsInDim S10x32 (![] : Fin 0 → Fin S10x32.rank)
  reducesTo_S10x32_S_d0_1 : S10x32.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x32 1) : IVec S_ 1 :=
  let main_c_5 : IVec S_ 1 := constantI S_ 1 1#1
  let main_v17 : IVec S_ 1 := (fun x v => Host.reduce IntOp.andi x v reducesTo_S10x32_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S32768x3072 .f32) (main_arg1 : FVec F S32x3072 .f32) (main_arg2 : FVec F S32 .f32) (main_arg3 : FVec F S10x32 .f32) (main_arg4 : FVec F S10 .f32) : IVec S_ 1 :=
  let main_v0 : FVec F S32768x3072 .f32 := Host.absf main_arg0
  let main_cst : FVec F S_ .f32 := constant S_ .f32 0x7F800000#32
  let main_v1 : FVec F S32768x3072 .f32 := broadcastInDim S32768x3072 ![] bcast_S_S32768x3072 main_cst
  let main_v2 : IVec S32768x3072 1 := cmpf .olt main_v0 main_v1
  let main_c : IVec S_ 1 := constantI S_ 1 1#1
  let main_v3 : IVec S_ 1 := (fun x v => Host.reduce IntOp.andi x v reducesTo_S32768x3072_S_d0_1 h_S_) main_v2 main_c
  let main_v4 : FVec F S32x3072 .f32 := Host.absf main_arg1
  let main_cst_0 : FVec F S_ .f32 := constant S_ .f32 0x7F800000#32
  let main_v5 : FVec F S32x3072 .f32 := broadcastInDim S32x3072 ![] bcast_S_S32x3072 main_cst_0
  let main_v6 : IVec S32x3072 1 := cmpf .olt main_v4 main_v5
  let main_c_1 : IVec S_ 1 := constantI S_ 1 1#1
  let main_v7 : IVec S_ 1 := (fun x v => Host.reduce IntOp.andi x v reducesTo_S32x3072_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S10x32 .f32 := Host.absf main_arg3
  let main_cst_4 : FVec F S_ .f32 := constant S_ .f32 0x7F800000#32
  let main_v15 : FVec F S10x32 .f32 := broadcastInDim S10x32 ![] bcast_S_S10x32 main_cst_4
  let main_v16 : IVec S10x32 1 := cmpf .olt main_v14 main_v15
  fn_part1 (F := F) main_arg4 main_v13 main_v16
-- ==== Kernel.lean ====
abbrev S32768x3072 : Shape := ⟨2, ![32768, 3072]⟩
abbrev S32x3072 : Shape := ⟨2, ![32, 3072]⟩
abbrev S32 : Shape := ⟨1, ![32]⟩
abbrev S10x32 : Shape := ⟨2, ![10, 32]⟩
abbrev S10 : Shape := ⟨1, ![10]⟩
abbrev S1x32 : Shape := ⟨2, ![1, 32]⟩
abbrev S_ : Shape := ⟨0, ![]⟩
abbrev S128x32 : Shape := ⟨2, ![128, 32]⟩
abbrev S1x10 : Shape := ⟨2, ![1, 10]⟩
abbrev S1x128 : Shape := ⟨2, ![1, 128]⟩
abbrev S32768x128 : Shape := ⟨2, ![32768, 128]⟩
abbrev S32768x10 : Shape := ⟨2, ![32768, 10]⟩
abbrev S512x3072 : Shape := ⟨2, ![512, 3072]⟩
abbrev S512x128 : Shape := ⟨2, ![512, 128]⟩
abbrev S512x32 : Shape := ⟨2, ![512, 32]⟩

abbrev nBuf : Space → Nat
  | .hbm => 17
  | .vmem => 8
  | .smem => 0
  | _ => 0

abbrev bufTy : (tb : Table) → Fin (tcTables nBuf tb) → BufTy
  | .hbm, ⟨0, _⟩ => ⟨S32768x3072, .f32⟩
  | .hbm, ⟨1, _⟩ => ⟨S32x3072, .f32⟩
  | .hbm, ⟨2, _⟩ => ⟨S32, .f32⟩
  | .hbm, ⟨3, _⟩ => ⟨S10x32, .f32⟩
  | .hbm, ⟨4, _⟩ => ⟨S10, .f32⟩
  | .hbm, ⟨5, _⟩ => ⟨S32x3072, .bf16⟩
  | .hbm, ⟨6, _⟩ => ⟨S1x32, .f32⟩
  | .hbm, ⟨7, _⟩ => ⟨S10x32, .bf16⟩
  | .hbm, ⟨8, _⟩ => ⟨S_, .i32⟩
  | .hbm, ⟨9, _⟩ => ⟨S_, .bf16⟩
  | .hbm, ⟨10, _⟩ => ⟨S128x32, .bf16⟩
  | .hbm, ⟨11, _⟩ => ⟨S1x10, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S32768x128, .f32⟩
  | .hbm, ⟨16, _⟩ => ⟨S32768x10, .f32⟩
  | .local _ .vmem, ⟨0, _⟩ => ⟨S512x3072, .f32⟩
  | .local _ .vmem, ⟨1, _⟩ => ⟨S512x3072, .f32⟩
  | .local _ .vmem, ⟨2, _⟩ => ⟨S32x3072, .bf16⟩
  | .local _ .vmem, ⟨3, _⟩ => ⟨S1x32, .f32⟩
  | .local _ .vmem, ⟨4, _⟩ => ⟨S128x32, .bf16⟩
  | .local _ .vmem, ⟨5, _⟩ => ⟨S1x128, .f32⟩
  | .local _ .vmem, ⟨6, _⟩ => ⟨S512x128, .f32⟩
  | .local _ .vmem, ⟨7, _⟩ => ⟨S512x128, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_call0_v0 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_call1_v0 : Ref sig .tc := ⟨.hbm, 13, rfl⟩
abbrev main_call0_v5 : Ref sig .tc := ⟨.hbm, 14, rfl⟩
abbrev main_call0_v6 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S32_S1x32 : S32.ShapeCasts S1x32
  pads_S10x32_S128x32_01180_000 : S10x32.Pads (![0, 0] : Fin 2 → Nat) ![118, 0] ![0, 0] S128x32
  h_S_ : 0 < S_.numel
  shapeCasts_S10_S1x10 : S10.ShapeCasts S1x10
  pads_S1x10_S1x128_000_01180 : S1x10.Pads (![0, 0] : Fin 2 → Nat) ![0, 118] ![0, 0] S1x128
  slices_S32768x128_S32768x10_0_0 : S32768x128.Slices ![0, 0] S32768x10
  inb_S512x3072_S512x3072_0_0 : ∀ a, (![0, 0] : Fin 2 → Nat) a + S512x3072.size a ≤ S512x3072.size a
  h_S512x3072 : 0 < S512x3072.numel
  inb_S32x3072_S32x3072_0_0 : ∀ a, (![0, 0] : Fin 2 → Nat) a + S32x3072.size a ≤ S32x3072.size a
  h_S32x3072 : 0 < S32x3072.numel
  shapeCasts_S32x3072_S32x3072 : S32x3072.ShapeCasts S32x3072
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x3072_S32x3072_S512x32_1_1_0_0_n_n_wf : DotDims.WF S512x3072 S32x3072 S512x32 [1] [1] [0] [0] [] []
  dot_S512x32_S128x32_S512x128_1_1_0_0_n_n_wf : DotDims.WF S512x32 S128x32 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S32768x3072.size a
  hwx0_0 : ∀ i : grid0.Coords, EltTy.bits .f32 = 32 ∨ (Rect.block (s := S32768x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x3072.size a ≤ S32x3072.size a
  hwx0_1 : ∀ i : grid0.Coords, EltTy.bits .bf16 = 32 ∨ (Rect.block (s := S32x3072) S32x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .bf16 = 32 ∨ (Rect.block (s := S128x32) S128x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S32768x128.size a
  hwx0_5 : ∀ i : grid0.Coords, EltTy.bits .f32 = 32 ∨ (Rect.block (s := S32768x128) S512x128.size (cc0_transform_5 i) (hinb0_5 i)).WholeWords (EltTy.packing .f32)

variable [Facts₀]

def dot_S512x3072_S32x3072_S512x32_1_1_0_0_n_n : DotDims S512x3072 S32x3072 S512x32 where
  lhsContracting := [1]
  rhsContracting := [1]
  lhsNonContracting := [0]
  rhsNonContracting := [0]
  lhsBatch := []
  rhsBatch := []
  wf := dot_S512x3072_S32x3072_S512x32_1_1_0_0_n_n_wf
def dot_S512x32_S128x32_S512x128_1_1_0_0_n_n : DotDims S512x32 S128x32 S512x128 where
  lhsContracting := [1]
  rhsContracting := [1]
  lhsNonContracting := [0]
  rhsNonContracting := [0]
  lhsBatch := []
  rhsBatch := []
  wf := dot_S512x32_S128x32_S512x128_1_1_0_0_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S32x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x3072 : Shape := ⟨2, ![32768, 3072]⟩
abbrev S32x3072 : Shape := ⟨2, ![32, 3072]⟩
abbrev S32 : Shape := ⟨1, ![32]⟩
abbrev S10x32 : Shape := ⟨2, ![10, 32]⟩
abbrev S10 : Shape := ⟨1, ![10]⟩
abbrev S32768x32 : Shape := ⟨2, ![32768, 32]⟩
abbrev S1x32 : Shape := ⟨2, ![1, 32]⟩
abbrev S_ : Shape := ⟨0, ![]⟩
abbrev S32768x10 : Shape := ⟨2, ![32768, 10]⟩
abbrev S1x10 : Shape := ⟨2, ![1, 10]⟩

abbrev nBuf : Space → Nat
  | .hbm => 24
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S32x3072, .f32⟩
  | .hbm, ⟨2, _⟩ => ⟨S32, .f32⟩
  | .hbm, ⟨3, _⟩ => ⟨S10x32, .f32⟩
  | .hbm, ⟨4, _⟩ => ⟨S10, .f32⟩
  | .hbm, ⟨5, _⟩ => ⟨S32768x32, .f32⟩
  | .hbm, ⟨6, _⟩ => ⟨S1x32, .f32⟩
  | .hbm, ⟨7, _⟩ => ⟨S32768x32, .f32⟩
  | .hbm, ⟨8, _⟩ => ⟨S32768x32, .f32⟩
  | .hbm, ⟨9, _⟩ => ⟨S_, .f32⟩
  | .hbm, ⟨10, _⟩ => ⟨S32768x32, .f32⟩
  | .hbm, ⟨11, _⟩ => ⟨S32768x32, .f32⟩
  | .hbm, ⟨12, _⟩ => ⟨S32768x10, .f32⟩
  | .hbm, ⟨13, _⟩ => ⟨S1x10, .f32⟩
  | .hbm, ⟨14, _⟩ => ⟨S32768x10, .f32⟩
  | .hbm, ⟨15, _⟩ => ⟨S32768x10, .f32⟩
  | .hbm, ⟨16, _⟩ => ⟨S32768x10, .f32⟩
  | .hbm, ⟨17, _⟩ => ⟨S32768x10, .f32⟩
  | .hbm, ⟨18, _⟩ => ⟨S_, .f32⟩
  | .hbm, ⟨19, _⟩ => ⟨S32768x10, .f32⟩
  | .hbm, ⟨20, _⟩ => ⟨S32768x10, .f32⟩
  | .hbm, ⟨21, _⟩ => ⟨S_, .f32⟩
  | .hbm, ⟨22, _⟩ => ⟨S32768x10, .f32⟩
  | .hbm, ⟨23, _⟩ => ⟨S32768x10, .f32⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  bcast_S_S32768x10 : S_.BroadcastsInDim S32768x10 (![] : Fin 0 → Fin S32768x10.rank)
  dot_S32768x3072_S32x3072_S32768x32_1_1_0_0_n_n_wf : DotDims.WF S32768x3072 S32x3072 S32768x32 [1] [1] [0] [0] [] []
  dot_S32768x32_S10x32_S32768x10_1_1_0_0_n_n_wf : DotDims.WF S32768x32 S10x32 S32768x10 [1] [1] [0] [0] [] []

variable [Facts₀]

def dot_S32768x3072_S32x3072_S32768x32_1_1_0_0_n_n : DotDims S32768x3072 S32x3072 S32768x32 where
  lhsContracting := [1]
  rhsContracting := [1]
  lhsNonContracting := [0]
  rhsNonContracting := [0]
  lhsBatch := []
  rhsBatch := []
  wf := dot_S32768x3072_S32x3072_S32768x32_1_1_0_0_n_n_wf
def dot_S32768x32_S10x32_S32768x10_1_1_0_0_n_n : DotDims S32768x32 S10x32 S32768x10 where
  lhsContracting := [1]
  rhsContracting := [1]
  lhsNonContracting := [0]
  rhsNonContracting := [0]
  lhsBatch := []
  rhsBatch := []
  wf := dot_S32768x32_S10x32_S32768x10_1_1_0_0_n_n_wf

class Facts : Prop extends Facts₀ where

variable [Facts]
-- ==== Proof.Mlp.lean ====
/-
  The two-layer perceptron that both programs compute, as ONE function of the five argument arrays over the
  extended reals. For a sample `n` (a row of `x`) and a class `o`:

      hidden n h = max (Σ_k x[n,k] · W1[h,k] + b1[h]) 0          (the first linear layer, then the rectifier)
      logit  n o = Σ_h hidden n h · W2[o,h] + b2[o]                (the second linear layer)
      prob   n o = 1 / (1 + exp (− logit n o))                     (the logistic function)

  Both contractions run over the LAST axis of both operands (`x · W1ᵀ`, `hidden · W2ᵀ`). No program is imported
  here: the shapes are the literal ones, so that the kernel's side and the reference's side state their results
  with this same term.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Mlp

variable (x : FVec Ideal ⟨2, ![32768, 3072]⟩ .f32) (W1 : FVec Ideal ⟨2, ![32, 3072]⟩ .f32)
  (b1 : FVec Ideal ⟨1, ![32]⟩ .f32) (W2 : FVec Ideal ⟨2, ![10, 32]⟩ .f32) (b2 : FVec Ideal ⟨1, ![10]⟩ .f32)

/-- Hidden unit `h` of sample `n`: the rectified affine form of the sample's 3072 features. -/
def hidden (n : Fin 32768) (h : Fin 32) : EReal :=
  max ((∑ k : Fin 3072, x (ix2 n k) * W1 (ix2 h k)) + b1 (ix1 h)) 0

/-- Class `o`'s score of sample `n`: the affine form of the sample's 32 hidden units. -/
def logit (n : Fin 32768) (o : Fin 10) : EReal :=
  (∑ h : Fin 32, hidden x W1 b1 n h * W2 (ix2 o h)) + b2 (ix1 o)

/-- The result array: the logistic function of every score. -/
def prob : FVec Ideal ⟨2, ![32768, 10]⟩ .f32 :=
  fun i => Ideal.logistic (logit x W1 b1 W2 b2 (i 0) (i 1))

/-- The word `0x3F800000` is the real number one. -/
theorem one_word : Ideal.ofBits .f32 0x3F800000#32 = 1 := by
  simp [Ideal.ofBits, Ideal.ieee, -EReal.coe_mul]; norm_num

/-- The logistic function spelt with the host's quotient, sum, exponential and negation — one over one plus the
    exponential of the negated score — is the logistic function: the two are one term on the extended reals. -/
theorem logistic_spelt (z : EReal) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) z)))
      = Ideal.logistic z := by
  rw [one_word]; rfl

end Cert.Mlp

end
-- ==== Proof.RefValue.lean ====
/-
  The reference computes the perceptron. Its program is read one operation at a time (the generated stages): the
  first contraction sums `x[n,k] · W1[h,k]` over `k`, the bias `b1` is broadcast along the rows, the rectifier is the
  maximum with the zero word, the second contraction sums `hidden n h · W2[o,h]` over `h`, the bias `b2` is broadcast
  along the rows, and the last four operations spell the logistic function as one over one plus the exponential of
  the negated score. Index by index that is `Cert.Mlp.prob`.
-/
import proofs.«425892_j498216206732_3_alg».proof.Proof.Gen.ReferenceIdeal.Read
import proofs.«425892_j498216206732_3_alg».proof.Proof.Mlp

noncomputable section

open scoped BigOperators

namespace Cert.ReferenceIdeal.RefValue

open Cert.ReferenceIdeal Cert.ReferenceIdeal.Read Idealize.ShloMosaic Idealize.ShloMosaic.ValueIdx

variable (x0 : (⟨S32768x3072, .f32⟩ : BufTy).Contents (Elt Ideal)) (x1 : (⟨S32x3072, .f32⟩ : BufTy).Contents (Elt Ideal))
  (x2 : (⟨S32, .f32⟩ : BufTy).Contents (Elt Ideal)) (x3 : (⟨S10x32, .f32⟩ : BufTy).Contents (Elt Ideal))
  (x4 : (⟨S10, .f32⟩ : BufTy).Contents (Elt Ideal))

/-- The rectified first layer at sample `n` and hidden unit `h`: the contraction reads row `n` of `x` against row `h`
    of `W1`, and the twice-broadcast bias reads `b1[h]`. -/
theorem hidden_eq (n : Fin 32768) (h : Fin 32) :
    val_main_v4 (F := Ideal) x0 x1 x2 (ix2 n h) = Cert.Mlp.hidden x0 x1 x2 n h := by
  rw [val_main_v4_apply, val_main_v3_apply, val_main_v0_apply, val_main_v2_apply, val_main_v1_apply,
    val_main_call0_v0_apply, val_main_call0_cst_apply]
  have el : ∀ k : Fin 3072, lidx_main_v0 (ix2 n h) k = ix2 n k := fun k =>
    funext fun a => Fin.ext (by match a with | ⟨0, _⟩ => rfl | ⟨1, _⟩ => rfl)
  have er : ∀ k : Fin 3072, ridx_main_v0 (ix2 n h) k = ix2 h k := fun k =>
    funext fun a => Fin.ext (by match a with | ⟨0, _⟩ => rfl | ⟨1, _⟩ => rfl)
  have eb : idx_main_v1 (idx_main_v2 (ix2 n h)) = ix1 h :=
    funext fun a => Fin.ext (by match a with | ⟨0, _⟩ => rfl)
  simp only [el, er, eb, Ideal.ofBits_def, Ideal.ofBits_zero_f32]
  rfl

/-- The reference's result is the perceptron's, index by index. -/
theorem result_eq : val_main_v14 (F := Ideal) x0 x1 x2 x3 x4 = Cert.Mlp.prob x0 x1 x2 x3 x4 := by
  funext i
  obtain ⟨n, o, rfl⟩ : ∃ (n : Fin 32768) (o : Fin 10), i = ix2 n o := ⟨i 0, i 1, eq_ix2 i⟩
  rw [val_main_v14_apply, val_main_v13_apply, val_main_cst_0_apply, val_main_v12_apply, val_main_v11_apply,
    val_main_cst_apply, val_main_v10_apply, val_main_v9_apply, val_main_v8_apply, val_main_v5_apply,
    val_main_v7_apply, val_main_v6_apply]
  have el : ∀ k : Fin 32, lidx_main_v5 (ix2 n o) k = ix2 n k := fun k =>
    funext fun a => Fin.ext (by match a with | ⟨0, _⟩ => rfl | ⟨1, _⟩ => rfl)
  have er : ∀ k : Fin 32, ridx_main_v5 (ix2 n o) k = ix2 o k := fun k =>
    funext fun a => Fin.ext (by match a with | ⟨0, _⟩ => rfl | ⟨1, _⟩ => rfl)
  have eb : idx_main_v6 (idx_main_v7 (ix2 n o)) = ix1 o :=
    funext fun a => Fin.ext (by match a with | ⟨0, _⟩ => rfl)
  simp only [el, er, eb, hidden_eq, Ideal.ofBits_def]
  exact Cert.Mlp.logistic_spelt _

end Cert.ReferenceIdeal.RefValue

end
-- ==== Proof.Body.lean ====
/-
  The kernel body's arithmetic on one block of 512 samples, read at one element. The body holds a block of `x`
  (512 × 3072), all of `W1` (32 × 3072), `b1` as a row (1 × 32), `W2` with its rows padded to 128 (128 × 32) and `b2` as a
  padded row (1 × 128). Both of its matrix products accumulate into a zero splat and contract the LAST axis of both
  operands, so at (p, q) each is the plain sum over `k` of `L[p,k] · R[q,k]`; the changes of float format are the
  identity on the extended reals; a bias row broadcast over the samples reads its one row. So at sample `r` of the
  block and column `o` the stored value is

      logistic (Σ_h max (Σ_k x[r,k] · W1[h,k] + b1[0,h]) 0 · W2[o,h] + b2[0,o]).
-/
import proofs.«425892_j498216206732_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The operand indices of the two contractions, axis by axis -/

theorem first_l0 (i : S512x32.Idx) (q : dot_S512x3072_S32x3072_S512x32_1_1_0_0_n_n.contr.Idx) : (dot_S512x3072_S32x3072_S512x32_1_1_0_0_n_n.lhsIdx i q 0).val = (i 0).val := by
  unfold DotDims.lhsIdx
  rw [dif_neg (show ¬(0 : Fin S512x3072.rank) ∈ dot_S512x3072_S32x3072_S512x32_1_1_0_0_n_n.lhsBatch by decide), dif_pos (show (0 : Fin S512x3072.rank) ∈ dot_S512x3072_S32x3072_S512x32_1_1_0_0_n_n.lhsNonContracting by decide)]
  rfl
theorem first_l1 (i : S512x32.Idx) (q : dot_S512x3072_S32x3072_S512x32_1_1_0_0_n_n.contr.Idx) : (dot_S512x3072_S32x3072_S512x32_1_1_0_0_n_n.lhsIdx i q 1).val = (q ⟨0, by decide⟩).val :=
  dot_S512x3072_S32x3072_S512x32_1_1_0_0_n_n.lhsIdx_val_of_single rfl i q
theorem first_r0 (i : S512x32.Idx) (q : dot_S512x3072_S32x3072_S512x32_1_1_0_0_n_n.contr.Idx) : (dot_S512x3072_S32x3072_S512x32_1_1_0_0_n_n.rhsIdx i q 0).val = (i 1).val := by
  unfold DotDims.rhsIdx
  rw [dif_neg (show ¬(0 : Fin S32x3072.rank) ∈ dot_S512x3072_S32x3072_S512x32_1_1_0_0_n_n.rhsBatch by decide), dif_pos (show (0 : Fin S32x3072.rank) ∈ dot_S512x3072_S32x3072_S512x32_1_1_0_0_n_n.rhsNonContracting by decide)]
  rfl
theorem first_r1 (i : S512x32.Idx) (q : dot_S512x3072_S32x3072_S512x32_1_1_0_0_n_n.contr.Idx) : (dot_S512x3072_S32x3072_S512x32_1_1_0_0_n_n.rhsIdx i q 1).val = (q ⟨0, by decide⟩).val :=
  dot_S512x3072_S32x3072_S512x32_1_1_0_0_n_n.rhsIdx_val_of_single rfl i q

theorem second_l0 (i : S512x128.Idx) (q : dot_S512x32_S128x32_S512x128_1_1_0_0_n_n.contr.Idx) : (dot_S512x32_S128x32_S512x128_1_1_0_0_n_n.lhsIdx i q 0).val = (i 0).val := by
  unfold DotDims.lhsIdx
  rw [dif_neg (show ¬(0 : Fin S512x32.rank) ∈ dot_S512x32_S128x32_S512x128_1_1_0_0_n_n.lhsBatch by decide), dif_pos (show (0 : Fin S512x32.rank) ∈ dot_S512x32_S128x32_S512x128_1_1_0_0_n_n.lhsNonContracting by decide)]
  rfl
theorem second_l1 (i : S512x128.Idx) (q : dot_S512x32_S128x32_S512x128_1_1_0_0_n_n.contr.Idx) : (dot_S512x32_S128x32_S512x128_1_1_0_0_n_n.lhsIdx i q 1).val = (q ⟨0, by decide⟩).val :=
  dot_S512x32_S128x32_S512x128_1_1_0_0_n_n.lhsIdx_val_of_single rfl i q
theorem second_r0 (i : S512x128.Idx) (q : dot_S512x32_S128x32_S512x128_1_1_0_0_n_n.contr.Idx) : (dot_S512x32_S128x32_S512x128_1_1_0_0_n_n.rhsIdx i q 0).val = (i 1).val := by
  unfold DotDims.rhsIdx
  rw [dif_neg (show ¬(0 : Fin S128x32.rank) ∈ dot_S512x32_S128x32_S512x128_1_1_0_0_n_n.rhsBatch by decide), dif_pos (show (0 : Fin S128x32.rank) ∈ dot_S512x32_S128x32_S512x128_1_1_0_0_n_n.rhsNonContracting by decide)]
  rfl
theorem second_r1 (i : S512x128.Idx) (q : dot_S512x32_S128x32_S512x128_1_1_0_0_n_n.contr.Idx) : (dot_S512x32_S128x32_S512x128_1_1_0_0_n_n.rhsIdx i q 1).val = (q ⟨0, by decide⟩).val :=
  dot_S512x32_S128x32_S512x128_1_1_0_0_n_n.rhsIdx_val_of_single rfl i q

/-! ## The two matrix products at an element -/

/-- The first layer's product at sample `p` and hidden unit `q`: row `p` of the left block against row `q` of the right. -/
theorem first_apply (L : FVec Ideal S512x3072 .bf16) (R : FVec Ideal S32x3072 .bf16) (p : Fin 512) (q : Fin 32) :
    matmul dot_S512x3072_S32x3072_S512x32_1_1_0_0_n_n none L R (constant S512x32 .f32 0x00000000#32) (ix2 p q) = ∑ k : Fin 3072, L (ix2 p k) * R (ix2 q k) := by
  simp only [matmul]
  rw [Ideal.matmul_constant_zero_apply, ← Equiv.sum_comp (contrEquiv1 dot_S512x3072_S32x3072_S512x32_1_1_0_0_n_n 3072 rfl rfl).symm]
  refine Finset.sum_congr rfl fun k _ => ?_
  have hk := contrEquiv1_symm_val dot_S512x3072_S32x3072_S512x32_1_1_0_0_n_n 3072 rfl rfl k
  have el : dot_S512x3072_S32x3072_S512x32_1_1_0_0_n_n.lhsIdx (ix2 p q) ((contrEquiv1 dot_S512x3072_S32x3072_S512x32_1_1_0_0_n_n 3072 rfl rfl).symm k) = ix2 p k := funext fun a => Fin.ext (by
    match a with
    | ⟨0, _⟩ => exact first_l0 _ _
    | ⟨1, _⟩ => exact (first_l1 _ _).trans hk)
  have er : dot_S512x3072_S32x3072_S512x32_1_1_0_0_n_n.rhsIdx (ix2 p q) ((contrEquiv1 dot_S512x3072_S32x3072_S512x32_1_1_0_0_n_n 3072 rfl rfl).symm k) = ix2 q k := funext fun a => Fin.ext (by
    match a with
    | ⟨0, _⟩ => exact first_r0 _ _
    | ⟨1, _⟩ => exact (first_r1 _ _).trans hk)
  rw [el, er]

/-- The second layer's product at sample `p` and column `q`: the sample's hidden units against row `q` of the padded weights. -/
theorem second_apply (L : FVec Ideal S512x32 .bf16) (R : FVec Ideal S128x32 .bf16) (p : Fin 512) (q : Fin 128) :
    matmul dot_S512x32_S128x32_S512x128_1_1_0_0_n_n none L R (constant S512x128 .f32 0x00000000#32) (ix2 p q) = ∑ k : Fin 32, L (ix2 p k) * R (ix2 q k) := by
  simp only [matmul]
  rw [Ideal.matmul_constant_zero_apply, ← Equiv.sum_comp (contrEquiv1 dot_S512x32_S128x32_S512x128_1_1_0_0_n_n 32 rfl rfl).symm]
  refine Finset.sum_congr rfl fun k _ => ?_
  have hk := contrEquiv1_symm_val dot_S512x32_S128x32_S512x128_1_1_0_0_n_n 32 rfl rfl k
  have el : dot_S512x32_S128x32_S512x128_1_1_0_0_n_n.lhsIdx (ix2 p q) ((contrEquiv1 dot_S512x32_S128x32_S512x128_1_1_0_0_n_n 32 rfl rfl).symm k) = ix2 p k := funext fun a => Fin.ext (by
    match a with
    | ⟨0, _⟩ => exact second_l0 _ _
    | ⟨1, _⟩ => exact (second_l1 _ _).trans hk)
  have er : dot_S512x32_S128x32_S512x128_1_1_0_0_n_n.rhsIdx (ix2 p q) ((contrEquiv1 dot_S512x32_S128x32_S512x128_1_1_0_0_n_n 32 rfl rfl).symm k) = ix2 q k := funext fun a => Fin.ext (by
    match a with
    | ⟨0, _⟩ => exact second_r0 _ _
    | ⟨1, _⟩ => exact (second_r1 _ _).trans hk)
  rw [el, er]

/-! ## The stored value at an element -/

/-- What the body stores at sample `r` of its block and column `o`. -/
theorem stored_apply (v0 : Vec Ideal S512x3072 .f32) (v2 : Vec Ideal S32x3072 .bf16) (v5 : Vec Ideal S1x32 .f32)
    (v12 : Vec Ideal S128x32 .bf16) (v15 : Vec Ideal S1x128 .f32) (r : Fin 512) (o : Fin 128) :
    k0_pay1 (F := Ideal) v0 v2 v5 v12 v15 (ix2 r o)
      = Ideal.logistic ((∑ h : Fin 32, max ((∑ k : Fin 3072, v0 (ix2 r k) * v2 (ix2 h k)) + v5 (ix2 (0 : Fin 1) h)) 0
          * v12 (ix2 o h)) + v15 (ix2 (0 : Fin 1) o)) := by
  unfold k0_pay1
  show Ideal.logistic _ = _
  simp only [addf_apply, second_apply, first_apply, truncf_apply, maximumf_apply, broadcastTo_1b_ab_apply,
    shapeCast_self, broadcast_apply, Ideal.ofBits_def, Ideal.ofBits_zero_f32]

end Cert.KernelIdeal.Body

end
-- ==== Proof.Region.lean ====
/-
  The region's output array after the run. The grid has 64 points; point `t` stages rows `512·t … 512·t + 511` of `x`
  and of the 32768 × 128 output, and all of the four small operands (their block index is (0, 0) at every point). So
  what point `t` writes back is block `t` of ONE function of the arrays the region finds: at row `n` and column `o`,

      cell n o = logistic (Σ_h max (Σ_k x[n,k] · W1[h,k] + b1[0,h]) 0 · W2p[o,h] + b2p[0,o]),

  with `W2p`, `b2p` the operands padded to 128. The 64 blocks tile the output (row `n` is in block `n / 512`), so the
  array ends holding that function everywhere.
-/
import proofs.«425892_j498216206732_3_alg».proof.Proof.Gen.KernelIdeal.Frame
import proofs.«425892_j498216206732_3_alg».proof.Proof.Body
import Idealize.ShloMosaic.Lib.Pipeline.Value
import Idealize.ShloMosaic.Lib.ValueIdx

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The function the output holds -/

/-- One cell of the 128-column output, from the five arrays the region reads. -/
def cell (X : FVec Ideal S32768x3072 .f32) (A : FVec Ideal S32x3072 .bf16) (a : FVec Ideal S1x32 .f32)
    (B : FVec Ideal S128x32 .bf16) (b : FVec Ideal S1x128 .f32) (n : Fin 32768) (o : Fin 128) : EReal :=
  Ideal.logistic ((∑ h : Fin 32, max ((∑ k : Fin 3072, X (ix2 n k) * A (ix2 h k)) + a (ix2 (0 : Fin 1) h)) 0
    * B (ix2 o h)) + b (ix2 (0 : Fin 1) o))

/-- The whole 128-column output. -/
def wide (X : FVec Ideal S32768x3072 .f32) (A : FVec Ideal S32x3072 .bf16) (a : FVec Ideal S1x32 .f32)
    (B : FVec Ideal S128x32 .bf16) (b : FVec Ideal S1x128 .f32) : S32768x128.Idx → Elt Ideal .f32 :=
  fun i => cell X A a B b (i 0) (i 1)

/-! ## Where each window's block lies -/

theorem offs_zero : (![0, 0] : Fin 2 → Nat) = fun _ => 0 := funext fun a => by fin_cases a <;> rfl

/-- The block indices, decided over the 64 points: the two streamed windows are at block `t` of the rows, the four
    resident ones at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 64 := lt_of_lt_of_eq t.isLt N_0

/-- Row `r` of point `t`'s block is row `512·t + r` of the array. -/
def row (t : Fin cfg0.N) (r : Fin 512) : Fin 32768 :=
  ⟨t.val * 512 + r.val, by have := point_lt t; have := r.isLt; omega⟩

/-- The streamed block of `x` at point `t` reads rows `512·t + r`. -/
theorem x_read (c : Dev nD) (t : Fin cfg0.N) (r : Fin 512) (k : Fin 3072) :
    iblk m c 0 t (ix2 r k) = V m c main_arg0 (ix2 (row t r) k) := by
  have e := idx_facts t
  show V m c main_arg0 (((cfg0.win 0).blk t).view.emb (ix2 r k)) = _
  refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 3072 + 1 * k.val = k.val; omega

/-- The first layer's weights are staged whole. -/
theorem w1_read (c : Dev nD) (t : Fin cfg0.N) (h : Fin 32) (k : Fin 3072) :
    iblk m c 1 t (ix2 h k) = V m c main_call0_v0 (ix2 h k) := by
  have e := idx_facts t
  show V m c main_call0_v0 (((cfg0.win 1).blk t).view.emb (ix2 h k)) = _
  refine congrArg (V m c main_call0_v0) (funext fun a => Fin.ext ?_)
  match a with
  | ⟨0, _⟩ => show win0_1.index t (0 : Fin 2) * 32 + 1 * h.val = h.val; omega
  | ⟨1, _⟩ => show win0_1.index t (1 : Fin 2) * 3072 + 1 * k.val = k.val; omega

/-- The first layer's bias row is staged whole. -/
theorem b1_read (c : Dev nD) (t : Fin cfg0.N) (z : Fin 1) (h : Fin 32) :
    iblk m c 2 t (ix2 z h) = V m c main_call0_v1 (ix2 z h) := by
  have e := idx_facts t
  show V m c main_call0_v1 (((cfg0.win 2).blk t).view.emb (ix2 z h)) = _
  refine congrArg (V m c main_call0_v1) (funext fun a => Fin.ext ?_)
  match a with
  | ⟨0, _⟩ => show win0_2.index t (0 : Fin 2) * 1 + 1 * z.val = z.val; omega
  | ⟨1, _⟩ => show win0_2.index t (1 : Fin 2) * 32 + 1 * h.val = h.val; omega

/-- The second layer's padded weights are staged whole. -/
theorem w2_read (c : Dev nD) (t : Fin cfg0.N) (o : Fin 128) (h : Fin 32) :
    iblk m c 3 t (ix2 o h) = V m c main_call0_v3 (ix2 o h) := by
  have e := idx_facts t
  show V m c main_call0_v3 (((cfg0.win 3).blk t).view.emb (ix2 o h)) = _
  refine congrArg (V m c main_call0_v3) (funext fun a => Fin.ext ?_)
  match a with
  | ⟨0, _⟩ => show win0_3.index t (0 : Fin 2) * 128 + 1 * o.val = o.val; omega
  | ⟨1, _⟩ => show win0_3.index t (1 : Fin 2) * 32 + 1 * h.val = h.val; omega

/-- The second layer's padded bias row is staged whole. -/
theorem b2_read (c : Dev nD) (t : Fin cfg0.N) (z : Fin 1) (o : Fin 128) :
    iblk m c 4 t (ix2 z o) = V m c main_call0_v5 (ix2 z o) := by
  have e := idx_facts t
  show V m c main_call0_v5 (((cfg0.win 4).blk t).view.emb (ix2 z o)) = _
  refine congrArg (V m c main_call0_v5) (funext fun a => Fin.ext ?_)
  match a with
  | ⟨0, _⟩ => show win0_4.index t (0 : Fin 2) * 1 + 1 * z.val = z.val; omega
  | ⟨1, _⟩ => show win0_4.index t (1 : Fin 2) * 128 + 1 * o.val = o.val; omega

/-- The output block's element (r, o) at point `t` is the array's element (512·t + r, o). -/
theorem out_pos (t : Fin cfg0.N) (r : Fin 512) (o : Fin 128) :
    ((cfg0.win 5).blk t).view.emb (ix2 r o) = ix2 (row t r) o := by
  have e := idx_facts t
  refine funext fun a => Fin.ext ?_
  match a with
  | ⟨0, _⟩ => show win0_5.index t (0 : Fin 2) * 512 + 1 * r.val = t.val * 512 + r.val; omega
  | ⟨1, _⟩ => show win0_5.index t (1 : Fin 2) * 128 + 1 * o.val = o.val; omega

/-! ## What a point writes back -/

/-- Element by element, what the body stores at point `t` is the cell of the array at the element's place. -/
theorem block_eq (c : Dev nD) (t : Fin cfg0.N) (j : S512x128.Idx) :
    k0_pay1 (F := Ideal) (iblk m c 0 t) (iblk m c 1 t) (iblk m c 2 t) (iblk m c 3 t) (iblk m c 4 t) j
      = wide (V m c main_arg0) (V m c main_call0_v0) (V m c main_call0_v1) (V m c main_call0_v3) (V m c main_call0_v5) (((cfg0.win 5).blk t).view.emb j) := by
  obtain ⟨r, o, rfl⟩ : ∃ (r : Fin 512) (o : Fin 128), j = ix2 r o := ⟨j 0, j 1, eq_ix2 j⟩
  refine (Body.stored_apply (iblk m c 0 t) (iblk m c 1 t) (iblk m c 2 t) (iblk m c 3 t) (iblk m c 4 t) r o).trans ?_
  rw [out_pos t r o]
  show _ = cell (V m c main_arg0) (V m c main_call0_v0) (V m c main_call0_v1) (V m c main_call0_v3) (V m c main_call0_v5) (row t r) o
  unfold cell
  simp only [x_read, w1_read, b1_read, w2_read, b2_read]

/-- What point `t` writes back is block `t` of `wide` of the arrays the region finds. -/
theorem flushed_eq (c : Dev nD) (t : Fin cfg0.N) :
    (dats m 0 c).flushed 5 t = ((cfg0.win 5).blk t).view.read (Elt Ideal) (wide (V m c main_arg0) (V m c main_call0_v0) (V m c main_call0_v1) (V m c main_call0_v3) (V m c main_call0_v5)) := by
  show (cfg0.win 5).cut (grid0.coords t) ((dats m 0 c).after 5 t) = _
  rw [after0_5]
  unfold out0_5
  rw [View.canon_unit_zero offs_zero]
  simp only [View.ld_unit_zero (S := S512x3072) offs_zero, View.ld_unit_zero (S := S32x3072) offs_zero,
    View.ld_unit_zero (S := S1x32) offs_zero, View.ld_unit_zero (S := S128x32) offs_zero,
    View.ld_unit_zero (S := S1x128) offs_zero]
  exact funext (block_eq m c t)

/-! ## The blocks tile the output -/

/-- An element of the array is in point `t`'s block iff each coordinate is in the block's range on its axis. -/
theorem mem_blk (t : Fin cfg0.N) (i : S32768x128.Idx) :
    i ∈ ((cfg0.win 5).blk t).view.set ↔ ∀ a : Fin 2, win0_5.index t a * S512x128.size a ≤ (i a).val
      ∧ (i a).val < win0_5.index t a * S512x128.size a + S512x128.size a := by
  show i ∈ ((View.whole main_call0_v6).slice (win0_5.rect t)).set ↔ _
  rw [View.set_slice_whole, Rect.mem_set_unit]
  exact Iff.rfl

/-- Every element of the array is in the block of the point its row falls in. -/
theorem covered (i : S32768x128.Idx) :
    ∃ t : Fin cfg0.N, (cfg0.win 5).flush t = true ∧ i ∈ ((cfg0.win 5).blk t).view.set := by
  have hi0 : (i 0).val < 32768 := (i 0).isLt
  have hi1 : (i 1).val < 128 := (i 1).isLt
  have hN : cfg0.N = 64 := N_0
  let t : Fin cfg0.N := ⟨(i 0).val / 512, by rw [hN]; omega⟩
  have ht : t.val = (i 0).val / 512 := rfl
  have e := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 128 ≤ (i 1).val ∧ (i 1).val < win0_5.index t (1 : Fin 2) * 128 + 128
    omega

/-- The output array after all 64 write-backs. -/
theorem final (c : Dev nD) : (dats m 0 c).arrAt 5 cfg0.N = wide (V m c main_arg0) (V m c main_call0_v0) (V m c main_call0_v1) (V m c main_call0_v3) (V m c main_call0_v5) :=
  (dats m 0 c).arrAt_eq_of_cover 5 _ (fun t _ => flushed_eq m c t) covered

end Cert.KernelIdeal.Region

end
-- ==== Proof.Entry.lean ====
/-
  What the region finds in its four small windows. Before the region the program prepares them from the arguments:
  `W1` changed to the narrow float format (the identity on the extended reals); `b1` given a leading unit axis;
  `W2` changed to the narrow format and padded with 118 zero rows below its 10; `b2` given a leading unit axis and
  padded with 118 zero columns after its 10. Read at an element inside the original extents, each is the argument's
  own element: the padding is never read there.
-/
import proofs.«425892_j498216206732_3_alg».proof.Proof.Gen.KernelIdeal.Frame
import Idealize.ShloMosaic.Lib.StableHlo.Run
import Idealize.ShloMosaic.Lib.KernelVsHost
import Idealize.ShloMosaic.Lib.ValueLayout
import Idealize.ShloMosaic.Lib.ValueIdx

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The first layer's weights as the region finds them: `W1` in the narrow format. -/
theorem w1_whole (c : Dev nD) : (V m c main_call0_v0 : S32x3072.Idx → EReal)
    = truncf (F := Ideal) (s := S32x3072) (φ := .f32) .bf16 (m ((c.tc : Thread nD τ).loc main_arg1)) bitsLt_bf16_f32 := by
  show StableHlo.after hostOps0 (fun b => m (c, b)) (Proc.devRef .tc main_call0_v0) = _
  after_results <;> rfl

/-- Element (h, k) of them is `W1[h,k]`. -/
theorem w1_found (c : Dev nD) (h : Fin 32) (k : Fin 3072) :
    V m c main_call0_v0 (ix2 h k) = m ((c.tc : Thread nD τ).loc main_arg1) (ix2 h k) :=
  congrFun (w1_whole m c) (ix2 h k)

/-- The first layer's bias as the region finds it: `b1` with a leading unit axis. -/
theorem b1_whole (c : Dev nD) : (V m c main_call0_v1 : S1x32.Idx → EReal)
    = shapeCast S1x32 (m ((c.tc : Thread nD τ).loc main_arg2)) shapeCasts_S32_S1x32 := by
  show StableHlo.after hostOps0 (fun b => m (c, b)) (Proc.devRef .tc main_call0_v1) = _
  after_results <;> rfl

/-- Element (0, h) of it is `b1[h]`. -/
theorem b1_found (c : Dev nD) (z : Fin 1) (h : Fin 32) :
    V m c main_call0_v1 (ix2 z h) = m ((c.tc : Thread nD τ).loc main_arg2) (ix1 h) :=
  (congrFun (b1_whole m c) (ix2 z h)).trans (shapeCast_a_1a_apply _ _ z h)

/-- The second layer's weights as the region finds them: `W2` in the narrow format, 118 rows of the zero word below. -/
theorem w2_whole (c : Dev nD) : (V m c main_call0_v3 : S128x32.Idx → EReal)
    = pad S128x32 ![0, 0] ![118, 0] ![0, 0]
        (truncf (F := Ideal) (s := S10x32) (φ := .f32) .bf16 (m ((c.tc : Thread nD τ).loc main_arg3)) bitsLt_bf16_f32)
        (sitofp (F := Ideal) (s := S_) .bf16 (constantI S_ 32 0#32)) pads_S10x32_S128x32_01180_000 h_S_ := by
  show StableHlo.after hostOps0 (fun b => m (c, b)) (Proc.devRef .tc main_call0_v3) = _
  after_results <;> rfl

/-- Element (o, h) of them, for a class `o` below 10, is `W2[o,h]`. -/
theorem w2_found (c : Dev nD) (o : Fin 10) (h : Fin 32) :
    V m c main_call0_v3 (ix2 (Fin.castLE (by decide : 10 ≤ 128) o) h) = m ((c.tc : Thread nD τ).loc main_arg3) (ix2 o h) :=
  (congrFun (w2_whole m c) _).trans
    (pad_apply_of_inside _ _ _ _ _ _ _ _ (ix2 o h) (fun a => by
      match a with
      | ⟨0, _⟩ => show o.val = 0 + o.val * (0 + 1); omega
      | ⟨1, _⟩ => show h.val = 0 + h.val * (0 + 1); omega))

/-- The second layer's bias as the region finds it: `b2` with a leading unit axis, 118 columns of the zero word after. -/
theorem b2_whole (c : Dev nD) : (V m c main_call0_v5 : S1x128.Idx → EReal)
    = pad S1x128 ![0, 0] ![0, 118] ![0, 0]
        (shapeCast S1x10 (m ((c.tc : Thread nD τ).loc main_arg4)) shapeCasts_S10_S1x10)
        (sitofp (F := Ideal) (s := S_) .f32 (constantI S_ 32 0#32)) pads_S1x10_S1x128_000_01180 h_S_ := by
  show StableHlo.after hostOps0 (fun b => m (c, b)) (Proc.devRef .tc main_call0_v5) = _
  after_results <;> rfl

/-- Element (0, o) of it, for a class `o` below 10, is `b2[o]`. -/
theorem b2_found (c : Dev nD) (z : Fin 1) (o : Fin 10) :
    V m c main_call0_v5 (ix2 z (Fin.castLE (by decide : 10 ≤ 128) o)) = m ((c.tc : Thread nD τ).loc main_arg4) (ix1 o) :=
  (congrFun (b2_whole m c) _).trans
    ((pad_apply_of_inside _ _ _ _ _ _ _ _ (ix2 z o) (fun a => by
      match a with
      | ⟨0, _⟩ => show z.val = 0 + z.val * (0 + 1); omega
      | ⟨1, _⟩ => show o.val = 0 + o.val * (0 + 1); omega)).trans (shapeCast_a_1a_apply _ _ z o))

end Cert.KernelIdeal.Entry

end
-- ==== Proof.Result.lean ====
/-
  The kernel program's result. After the region the program keeps columns 0 … 9 of the 32768 × 128 output. On those
  columns the padded weights and bias are `W2` and `b2` themselves, and the other small operands are `W1` and `b1`
  re-laid, so the kept part is the perceptron `Cert.Mlp.prob` of the five arguments: the 118 padded columns, where the
  zero padding would be read, are exactly the ones dropped.
-/
import proofs.«425892_j498216206732_3_alg».proof.Proof.Region
import proofs.«425892_j498216206732_3_alg».proof.Proof.Entry
import proofs.«425892_j498216206732_3_alg».proof.Proof.Mlp
import Idealize.ShloMosaic.Lib.StableHlo.Run
import Idealize.ShloMosaic.Lib.ValueLayout

set_option maxRecDepth 16384

noncomputable section

open scoped BigOperators

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- Columns 0 … 9 of the wide output are the perceptron of the arguments. -/
theorem kept_eq (c : Dev nD) :
    extractStridedSlice S32768x10 ![0, 0] (Region.wide (V m c main_arg0) (V m c main_call0_v0) (V m c main_call0_v1) (V m c main_call0_v3) (V m c main_call0_v5)) slices_S32768x128_S32768x10_0_0
      = Cert.Mlp.prob (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨n, o, rfl⟩ : ∃ (n : Fin 32768) (o : Fin 10), i = ix2 n o := ⟨i 0, i 1, eq_ix2 i⟩
  refine (slice2_axis1_apply 0 _ _ n o (Fin.castLE (by decide : 10 ≤ 128) o) (Nat.zero_add _).symm).trans ?_
  show Region.cell (V m c main_arg0) (V m c main_call0_v0) (V m c main_call0_v1) (V m c main_call0_v3) (V m c main_call0_v5) n (Fin.castLE (by decide : 10 ≤ 128) o)
    = Ideal.logistic (Cert.Mlp.logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) n o)
  unfold Region.cell Cert.Mlp.logit Cert.Mlp.hidden
  have hx : ∀ k : Fin 3072, V m c main_arg0 (ix2 n k) = m ((c.tc : Thread nD τ).loc main_arg0) (ix2 n k) := fun k =>
    congrFun (V_main_arg0 m c) (ix2 n k)
  exact congrArg Ideal.logistic (congrArg₂ (· + ·)
    (Finset.sum_congr rfl fun h _ => congrArg₂ (· * ·)
      (congrArg (max · (0 : EReal)) (congrArg₂ (· + ·)
        (Finset.sum_congr rfl fun k _ => congrArg₂ (· * ·) (hx k) (Entry.w1_found m c h k))
        (Entry.b1_found m c 0 h)))
      (Entry.w2_found m c o h))
    (Entry.b2_found m c 0 o))

/-- What the program's last operation leaves in the result buffer. -/
theorem tail_eq (c : Dev nD) :
    Pipeline.afterTail₀ cfgs (dats m) 0 (V0 m) [hostOps1] c main_v0 = Cert.Mlp.prob (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have hw : Pipeline.withArrays (cfgs 0).spec c (V0 m c) (fun w => (dats m 0 c).arrAt w (cfgs 0).N) (Proc.devRef .tc main_call0_v6)
      = Region.wide (V m c main_arg0) (V m c main_call0_v0) (V m c main_call0_v1) (V m c main_call0_v3) (V m c main_call0_v5) :=
    (Pipeline.withArrays_arr spec0 launch0.win.arr_inj c (V0 m c) (fun w => (dats m 0 c).arrAt w cfg0.N) 5).trans (Region.final m c)
  unfold Pipeline.afterTail₀
  show StableHlo.after hostOps1 _ (Proc.devRef .tc main_v0) = _
  after_results
  refine Eq.trans ?_ (kept_eq m c)
  rw [← hw]
  rfl

/-- The kernel program's run with its result named: every weakly fair execution ends with the result buffer at the
    perceptron of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0) = Cert.Mlp.prob (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.KernelIdeal.Result

end
-- ==== Proof.lean ====
/-
  A two-layer perceptron on 32768 samples of 3072 features: a linear layer to 32 hidden units, the rectifier, a linear
  layer to 10 classes, and the logistic function,

      prob n o = 1 / (1 + exp (−(Σ_h max (Σ_k x[n,k] · W1[h,k] + b1[h]) 0 · W2[o,h] + b2[o]))).

  The kernel streams the samples in 64 blocks of 512 rows. It holds `W1` and `W2` in a narrower float format, which on
  the extended reals is the same number, and it pads `W2` and `b2` with zeros from 10 to 128 classes so that each
  block's result is 128 columns wide; the program then keeps the first 10 columns. The reference computes the two
  layers as two whole contractions and spells the logistic function with a quotient, a sum, an exponential and a
  negation. Every sum on the two sides runs over the same index with the same terms, so the two results are the same
  function of the arguments, element by element, with no law of arithmetic needed beyond reading both programs at an
  element — in particular nothing here uses that the inputs are finite:

  * `Proof/Mlp.lean` states `prob`;
  * `Proof/RefValue.lean`: the reference's result is `prob`;
  * `Proof/Body.lean`: what the kernel body stores for one block, at an element;
  * `Proof/Region.lean`: block `t` written back is block `t` of one 32768 × 128 function, and the 64 blocks tile it;
  * `Proof/Entry.lean`: the small operands the region finds are the arguments re-laid and zero-padded;
  * `Proof/Result.lean`: the kept 10 columns are `prob`, and the kernel program's run with that result named.

  The kernel's idealization rewrote no operation, so that it preserves the kernel is the trivial statement.
-/
import proofs.«425892_j498216206732_3_alg».proof.Defs
import proofs.«425892_j498216206732_3_alg».proof.Proof.Gen.Kernel
import proofs.«425892_j498216206732_3_alg».proof.Proof.Gen.Kernel.Skeleton
import proofs.«425892_j498216206732_3_alg».proof.Proof.Gen.Kernel.Launch
import proofs.«425892_j498216206732_3_alg».proof.Proof.Gen.Kernel.Points
import proofs.«425892_j498216206732_3_alg».proof.Proof.Gen.Kernel.Frame
import proofs.«425892_j498216206732_3_alg».proof.Proof.Gen.KernelIdeal
import proofs.«425892_j498216206732_3_alg».proof.Proof.Gen.KernelIdeal.Skeleton
import proofs.«425892_j498216206732_3_alg».proof.Proof.Gen.KernelIdeal.Launch
import proofs.«425892_j498216206732_3_alg».proof.Proof.Gen.KernelIdeal.Points
import proofs.«425892_j498216206732_3_alg».proof.Proof.Gen.KernelIdeal.Frame
import proofs.«425892_j498216206732_3_alg».proof.Proof.Gen.ReferenceIdeal
import proofs.«425892_j498216206732_3_alg».proof.Proof.Gen.Pre_finite_inputs
import proofs.«425892_j498216206732_3_alg».proof.Proof.Gen.ReferenceIdeal.Run
import proofs.«425892_j498216206732_3_alg».proof.Proof.Gen.ReferenceIdeal.Read
import proofs.«425892_j498216206732_3_alg».proof.Proof.Mlp
import proofs.«425892_j498216206732_3_alg».proof.Proof.RefValue
import proofs.«425892_j498216206732_3_alg».proof.Proof.Result
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the five arguments both programs end with the perceptron's probabilities. -/
theorem algebraic : Cert.algebraic_KernelIdeal_ReferenceIdeal := by
  intro m ρ m' ρ' _ hagree
  refine ⟨fun c => Cert.Mlp.prob (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
